-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S9 : Shape := ⟨1, ![9]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) (main_arg2 : FVec F S2048x2048 .f32) (main_arg3 : IVec S9 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S9 : Shape := ⟨1, ![9]⟩
abbrev S256x2048 : Shape := ⟨2, ![256, 2048]⟩
abbrev S_ : Shape := ⟨0, ![]⟩
abbrev S1x2048 : Shape := ⟨2, ![1, 2048]⟩
abbrev S16383x2048 : Shape := ⟨2, ![16383, 2048]⟩
abbrev S8 : Shape := ⟨1, ![8]⟩
abbrev S8x1 : Shape := ⟨2, ![8, 1]⟩
abbrev S8x2048 : Shape := ⟨2, ![8, 2048]⟩
abbrev S16384 : Shape := ⟨1, ![16384]⟩
abbrev S256 : Shape := ⟨1, ![256]⟩

abbrev nBuf : Space → Nat
  | .hbm => 41
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S9, .i32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S1x2048, .f32⟩
  | .hbm, ⟨12, _⟩ => ⟨S16383x2048, .f32⟩
  | .hbm, ⟨13, _⟩ => ⟨S16384x2048, .f32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S8x2048, .f32⟩
  | .hbm, ⟨24, _⟩ => ⟨S8x2048, .f32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S8x1, .i32⟩
  | .hbm, ⟨33, _⟩ => ⟨S16384x2048, .f32⟩
  | .hbm, ⟨34, _⟩ => ⟨S16384, .f32⟩
  | .hbm, ⟨35, _⟩ => ⟨S16384, .i32⟩
  | .hbm, ⟨36, _⟩ => ⟨S16384, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S16384, .i1⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256, .f32⟩
  | .local _ .vmem, ⟨13, _⟩ => ⟨S256, .f32⟩
  | .local _ .vmem, ⟨14, _⟩ => ⟨S256, .i32⟩
  | .local _ .vmem, ⟨15, _⟩ => ⟨S256, .i32⟩
  | .local _ .vmem, ⟨16, _⟩ => ⟨S256, .f32⟩
  | .local _ .vmem, ⟨17, _⟩ => ⟨S256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S2048x2048_S2048x2048_1_0 : S2048x2048.Transposes [1, 0] S2048x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  bcast_S_S1x2048 : S_.BroadcastsInDim S1x2048 (![] : Fin 0 → Fin S1x2048.rank)
  slices_S16384x2048_S16383x2048_0_0 : S16384x2048.Slices ![0, 0] S16383x2048
  concatenates_S1x2048_S16383x2048_S16384x2048_d0 : Shape.Concatenates [S1x2048, S16383x2048] S16384x2048 0
  slices_S9_S8_0 : S9.Slices ![0] S8
  bcast_S_S8 : S_.BroadcastsInDim S8 (![] : Fin 0 → Fin S8.rank)
  bcast_S8_S8x1_0 : S8.BroadcastsInDim S8x1 (![0] : Fin 1 → Fin S8x1.rank)
  shapeCasts_S256x2048_S256x2048 : S256x2048.ShapeCasts S256x2048
  reduces_S256x2048_S256 : S256x2048.Reduces [1] S256
  inb_S256_S256_0 : ∀ a, (![0] : Fin 1 → Nat) a + S256.size a ≤ S256.size a
  h_S256 : 0 < S256.numel
  natLt_1_32 : 1 < 32
  bcast_S_S16384 : S_.BroadcastsInDim S16384 (![] : Fin 0 → Fin S16384.rank)
  dot_S256x2048_S2048x2048_S256x2048_1_0_0_1_n_n_wf : DotDims.WF S256x2048 S2048x2048 S256x2048 [1] [0] [0] [1] [] []
  gather_S16384x2048_S8x1_S8x2048_1_0_n_n_0_1_12048_wf : GatherDims.WF S16384x2048 S8x1 S8x2048 [1] [0] [] [0] [] 1 ![1, 2048]
  scatter_S16384x2048_S8x1_S8x2048_1_0_0_1_wf : ScatterDims.WF S16384x2048 S8x1 S8x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x2048.size a
  hwx0_3 : ∀ i : grid0.Coords, EltTy.bits .f32 = 32 ∨ (Rect.block (s := S16384x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .f32 = 32 ∨ (Rect.block (s := S16384x2048) S256x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S16384x2048.size a
  hwx1_0 : ∀ i : grid1.Coords, EltTy.bits .f32 = 32 ∨ (Rect.block (s := S16384x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S16384x2048.size a
  hwx1_1 : ∀ i : grid1.Coords, EltTy.bits .f32 = 32 ∨ (Rect.block (s := S16384x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S16384.size a
  hwx1_2 : ∀ i : grid1.Coords, EltTy.bits .f32 = 32 ∨ (Rect.block (s := S16384) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S16384.size a
  hwx1_3 : ∀ i : grid1.Coords, EltTy.bits .i32 = 32 ∨ (Rect.block (s := S16384) S256.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S16384.size a
  hwx1_4 : ∀ i : grid1.Coords, EltTy.bits .f32 = 32 ∨ (Rect.block (s := S16384) S256.size (cc1_transform_4 i) (hinb1_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def gather_S16384x2048_S8x1_S8x2048_1_0_n_n_0_1_12048 : GatherDims S16384x2048 S8x1 S8x2048 where
  offsetDims := [1]
  collapsedSliceDims := [0]
  operandBatchingDims := []
  startIndicesBatchingDims := []
  startIndexMap := [0]
  indexVectorDim := 1
  sliceSizes := ![1, 2048]
  wf := gather_S16384x2048_S8x1_S8x2048_1_0_n_n_0_1_12048_wf
def scatter_S16384x2048_S8x1_S8x2048_1_0_0_1 : ScatterDims S16384x2048 S8x1 S8x2048 where
  updateWindowDims := [1]
  insertedWindowDims := [0]
  scatterDimsToOperandDims := [0]
  indexVectorDim := 1
  wf := scatter_S16384x2048_S8x1_S8x2048_1_0_0_1_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_0) S256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24_1) S256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24_2) S256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S9 : Shape := ⟨1, ![9]⟩
abbrev S_ : Shape := ⟨0, ![]⟩
abbrev S1x2048 : Shape := ⟨2, ![1, 2048]⟩
abbrev S16383x2048 : Shape := ⟨2, ![16383, 2048]⟩
abbrev S8 : Shape := ⟨1, ![8]⟩
abbrev S8x1 : Shape := ⟨2, ![8, 1]⟩
abbrev S8x2048 : Shape := ⟨2, ![8, 2048]⟩
abbrev S16384 : Shape := ⟨1, ![16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S9, .i32⟩
  | .hbm, ⟨4, _⟩ => ⟨S2048x2048, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S_, .f32⟩
  | .hbm, ⟨9, _⟩ => ⟨S1x2048, .f32⟩
  | .hbm, ⟨10, _⟩ => ⟨S16383x2048, .f32⟩
  | .hbm, ⟨11, _⟩ => ⟨S16384x2048, .f32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S8x1, .i32⟩
  | .hbm, ⟨21, _⟩ => ⟨S8x2048, .f32⟩
  | .hbm, ⟨22, _⟩ => ⟨S8x2048, .f32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S8x1, .i32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x2048, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S_, .f32⟩
  | .hbm, ⟨66, _⟩ => ⟨S16384, .f32⟩
  | .hbm, ⟨67, _⟩ => ⟨S16384, .i1⟩
  | .hbm, ⟨68, _⟩ => ⟨S_, .f32⟩
  | .hbm, ⟨69, _⟩ => ⟨S_, .f32⟩
  | .hbm, ⟨70, _⟩ => ⟨S16384, .f32⟩
  | .hbm, ⟨71, _⟩ => ⟨S16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_cst_9 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_call3_v0 : Ref sig .tc := ⟨.hbm, 69, rfl⟩
abbrev main_call3_v1 : Ref sig .tc := ⟨.hbm, 70, rfl⟩
abbrev main_v40 : Ref sig .tc := ⟨.hbm, 71, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S_S1x2048 : S_.BroadcastsInDim S1x2048 (![] : Fin 0 → Fin S1x2048.rank)
  slices_S16384x2048_S16383x2048_0_0 : S16384x2048.Slices ![0, 0] S16383x2048
  concatenates_S1x2048_S16383x2048_S16384x2048_d0 : Shape.Concatenates [S1x2048, S16383x2048] S16384x2048 0
  slices_S9_S8_0 : S9.Slices ![0] S8
  bcast_S_S8 : S_.BroadcastsInDim S8 (![] : Fin 0 → Fin S8.rank)
  bcast_S8_S8x1_0 : S8.BroadcastsInDim S8x1 (![0] : Fin 1 → Fin S8x1.rank)
  reducesTo_S16384x2048_S16384_d1 : S16384x2048.ReducesTo [1] S16384
  h_S_ : 0 < S_.numel
  bcast_S_S16384 : S_.BroadcastsInDim S16384 (![] : Fin 0 → Fin S16384.rank)
  dot_S16384x2048_S2048x2048_S16384x2048_1_0_0_1_n_n_wf : DotDims.WF S16384x2048 S2048x2048 S16384x2048 [1] [0] [0] [1] [] []
  gather_S16384x2048_S8x1_S8x2048_1_0_n_n_0_1_12048_wf : GatherDims.WF S16384x2048 S8x1 S8x2048 [1] [0] [] [0] [] 1 ![1, 2048]
  scatter_S16384x2048_S8x1_S8x2048_1_0_0_1_wf : ScatterDims.WF S16384x2048 S8x1 S8x2048 [1] [0] [0] 1

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def gather_S16384x2048_S8x1_S8x2048_1_0_n_n_0_1_12048 : GatherDims S16384x2048 S8x1 S8x2048 where
  offsetDims := [1]
  collapsedSliceDims := [0]
  operandBatchingDims := []
  startIndicesBatchingDims := []
  startIndexMap := [0]
  indexVectorDim := 1
  sliceSizes := ![1, 2048]
  wf := gather_S16384x2048_S8x1_S8x2048_1_0_n_n_0_1_12048_wf
def scatter_S16384x2048_S8x1_S8x2048_1_0_0_1 : ScatterDims S16384x2048 S8x1 S8x2048 where
  updateWindowDims := [1]
  insertedWindowDims := [0]
  scatterDimsToOperandDims := [0]
  indexVectorDim := 1
  wf := scatter_S16384x2048_S8x1_S8x2048_1_0_0_1_wf

class Facts : Prop extends Facts₀ where

variable [Facts]
-- ==== Proof.MatPay.lean ====
import proofs.«423826_j13331578486932_1_alg».proof.Proof.Gen.KernelIdeal.Skeleton
import Idealize.ShloMosaic.PureOps.Ideal.Laws
import Idealize.ShloMosaic.Lib.ValueIdx
import Idealize.ShloMosaic.Lib.Pipeline.Value

/-! The projection kernel's arithmetic on one block: a 256×2048 block of `x` times a whole 2048×2048 matrix `w`,
accumulated into zero. On the extended reals the change of float format is the identity and the matrix unit's
product is the textbook one, so entry (p, q) of either stored block is  ∑ₖ x[p, k] · w[k, q]. -/

noncomputable section

namespace Cert.KernelIdeal.MatPay

open Cert.KernelIdeal Cert.KernelIdeal.Gen Idealize.ShloMosaic Idealize.ShloMosaic.ValueIdx

theorem lhs_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The matrix unit's product of a block with a whole matrix, into zero, at entry (p, q). -/
theorem matmul_apply (a : FVec Ideal S256x2048 .bf16) (w : FVec Ideal S2048x2048 .bf16) (p : Fin 256) (q : Fin 2048) :
    matmul dot_S256x2048_S2048x2048_S256x2048_1_0_0_1_n_n none a w (constant (F := Ideal) S256x2048 .f32 0x00000000#32) (ix2 p q)
      = ∑ k : Fin 2048, a (ix2 p k) * w (ix2 k q) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p q) ((ValueIdx.contrEquiv1 dot_S256x2048_S2048x2048_S256x2048_1_0_0_1_n_n 2048 rfl rfl).symm k) = ix2 p k := funext fun a => Fin.ext (by
    match a with
    | ⟨0, _⟩ => exact lhs_0 _ _
    | ⟨1, _⟩ => exact (lhs_1 _ _).trans hk)
  have er : dot_S256x2048_S2048x2048_S256x2048_1_0_0_1_n_n.rhsIdx (ix2 p q) ((ValueIdx.contrEquiv1 dot_S256x2048_S2048x2048_S256x2048_1_0_0_1_n_n 2048 rfl rfl).symm k) = ix2 k q := funext fun a => Fin.ext (by
    match a with
    | ⟨0, _⟩ => exact (rhs_0 _ _).trans hk
    | ⟨1, _⟩ => exact rhs_1 _ _)
  rw [el, er]

/-- Entry (p, q) of the first stored block. -/
theorem pay2_apply (x : FVec Ideal S256x2048 .f32) (w : FVec Ideal S2048x2048 .bf16) (p : Fin 256) (q : Fin 2048) :
    k0_pay2 (F := Ideal) x w (ix2 p q) = ∑ k : Fin 2048, x (ix2 p k) * w (ix2 k q) := by
  unfold k0_pay2 k0_pay1
  simp only [shapeCast_self]
  exact matmul_apply _ w p q

/-- Entry (p, q) of the second stored block. -/
theorem pay3_apply (x : FVec Ideal S256x2048 .f32) (w : FVec Ideal S2048x2048 .bf16) (p : Fin 256) (q : Fin 2048) :
    k0_pay3 (F := Ideal) x w (ix2 p q) = ∑ k : Fin 2048, x (ix2 p k) * w (ix2 k q) := by
  unfold k0_pay3 k0_pay1
  simp only [shapeCast_self]
  exact matmul_apply _ w p q

end Cert.KernelIdeal.MatPay

end
-- ==== Proof.Proj.lean ====
import proofs.«423826_j13331578486932_1_alg».proof.Proof.Gen.KernelIdeal.Frame
import proofs.«423826_j13331578486932_1_alg».proof.Proof.MatPay

/-! The first region's two output arrays, whole. The grid has 64 points; point `t` reads rows 256·t … 256·t+255 of
`x` and the two whole weight matrices, and writes the same rows of each output. So each output array ends as the
rows-by-columns product of `x` with that region's weight matrix: entry (i, j) is  ∑ₖ x[i, k] · w[k, j]. -/

set_option maxRecDepth 16384

noncomputable section

namespace Cert.KernelIdeal.Proj

open Cert.KernelIdeal Cert.KernelIdeal.Gen Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The rows-by-columns product of a 16384×2048 array with a 2048×2048 matrix. -/
abbrev prod (X : S16384x2048.Idx → EReal) (W : S2048x2048.Idx → EReal) : S16384x2048.Idx → EReal :=
  fun i => ∑ k : Fin 2048, X (ix2 ⟨(i 0).val, (i 0).isLt⟩ k) * W (ix2 k ⟨(i 1).val, (i 1).isLt⟩)

/-- The printed index maps over the grid: the row-blocked windows sit at block row `t`, the weight windows at the
    origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back through output window 3 is block `t` of the product with the first weight matrix. -/
theorem flushed3_eq (c : Dev nD) (t : Fin cfg0.N) :
    (dat0 V c).flushed 3 t = ((cfg0.win 3).blk t).view.read (Elt Ideal) (prod (V c main_arg0) (V c main_v1)) := by
  show (cfg0.win 3).cut (grid0.coords t) ((dat0 V c).after 3 t) = _
  rw [after0_3]
  unfold out0_3
  rw [View.canon_unit_zero hz]
  simp only [View.ld_unit_zero (S := S256x2048) hz, View.ld_unit_zero (S := S2048x2048) hz]
  obtain ⟨e00, e01, e10, e11, e20, e21, e30, e31, e40, e41⟩ := idx_facts t
  funext j
  obtain ⟨p, q, rfl⟩ : ∃ (p : Fin 256) (q : Fin 2048), j = ix2 p q := ⟨j 0, j 1, eq_ix2 j⟩
  refine (MatPay.pay2_apply (iblk0 V c 0 t) (iblk0 V c 1 t) p q).trans ?_
  rw [View.read_apply]
  show (∑ k : Fin 2048, (_ : EReal)) = ∑ k : Fin 2048, (_ : EReal)
  refine Finset.sum_congr rfl fun k _ => ?_
  refine congrArg₂ (· * ·) (congrArg (V c main_arg0) (funext fun a => Fin.ext ?_)) (congrArg (V c main_v1) (funext fun a => Fin.ext ?_))
  · match a with
    | ⟨0, _⟩ => show win0_0.index t (0 : Fin 2) * 256 + 1 * p.val = win0_3.index t (0 : Fin 2) * 256 + 1 * p.val; omega
    | ⟨1, _⟩ => show win0_0.index t (1 : Fin 2) * 2048 + 1 * k.val = k.val; omega
  · match a with
    | ⟨0, _⟩ => show win0_1.index t (0 : Fin 2) * 2048 + 1 * k.val = k.val; omega
    | ⟨1, _⟩ => show win0_1.index t (1 : Fin 2) * 2048 + 1 * q.val = win0_3.index t (1 : Fin 2) * 2048 + 1 * q.val; omega

/-- What point `t` writes back through output window 4 is block `t` of the product with the second weight matrix. -/
theorem flushed4_eq (c : Dev nD) (t : Fin cfg0.N) :
    (dat0 V c).flushed 4 t = ((cfg0.win 4).blk t).view.read (Elt Ideal) (prod (V c main_arg0) (V c main_v3)) := by
  show (cfg0.win 4).cut (grid0.coords t) ((dat0 V c).after 4 t) = _
  rw [after0_4]
  unfold out0_4
  rw [View.canon_unit_zero hz]
  simp only [View.ld_unit_zero (S := S256x2048) hz, View.ld_unit_zero (S := S2048x2048) hz]
  obtain ⟨e00, e01, e10, e11, e20, e21, e30, e31, e40, e41⟩ := idx_facts t
  funext j
  obtain ⟨p, q, rfl⟩ : ∃ (p : Fin 256) (q : Fin 2048), j = ix2 p q := ⟨j 0, j 1, eq_ix2 j⟩
  refine (MatPay.pay3_apply (iblk0 V c 0 t) (iblk0 V c 2 t) p q).trans ?_
  rw [View.read_apply]
  show (∑ k : Fin 2048, (_ : EReal)) = ∑ k : Fin 2048, (_ : EReal)
  refine Finset.sum_congr rfl fun k _ => ?_
  refine congrArg₂ (· * ·) (congrArg (V c main_arg0) (funext fun a => Fin.ext ?_)) (congrArg (V c main_v3) (funext fun a => Fin.ext ?_))
  · match a with
    | ⟨0, _⟩ => show win0_0.index t (0 : Fin 2) * 256 + 1 * p.val = win0_4.index t (0 : Fin 2) * 256 + 1 * p.val; omega
    | ⟨1, _⟩ => show win0_0.index t (1 : Fin 2) * 2048 + 1 * k.val = k.val; omega
  · match a with
    | ⟨0, _⟩ => show win0_2.index t (0 : Fin 2) * 2048 + 1 * k.val = k.val; omega
    | ⟨1, _⟩ => show win0_2.index t (1 : Fin 2) * 2048 + 1 * q.val = win0_4.index t (1 : Fin 2) * 2048 + 1 * q.val; omega

/-- An index of the array is in point `t`'s block of window 3 iff each coordinate is in the block's range. -/
theorem mem_blk3 (t : Fin cfg0.N) (i : S16384x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v4_0).slice (win0_3.rect t)).set ↔ _
  rw [View.set_slice_whole, Rect.mem_set_unit]
  exact Iff.rfl

theorem mem_blk4 (t : Fin cfg0.N) (i : S16384x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v4_1).slice (win0_4.rect t)).set ↔ _
  rw [View.set_slice_whole, Rect.mem_set_unit]
  exact Iff.rfl

/-- Row `i` lies in the block of point `i / 256`: the 64 row blocks tile the array. -/
theorem cover3 (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 64 := N_0
  let t : Fin cfg0.N := ⟨(i 0).val / 256, by rw [hN]; omega⟩
  obtain ⟨e00, e01, e10, e11, e20, e21, e30, e31, e40, e41⟩ := idx_facts t
  have ht : t.val = (i 0).val / 256 := rfl
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

theorem cover4 (i : S16384x2048.Idx) : ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 64 := N_0
  let t : Fin cfg0.N := ⟨(i 0).val / 256, by rw [hN]; omega⟩
  obtain ⟨e00, e01, e10, e11, e20, e21, e30, e31, e40, e41⟩ := idx_facts t
  have ht : t.val = (i 0).val / 256 := rfl
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-- After the first region its first output array is the product of `x` with the first staged weight matrix … -/
theorem final3 (c : Dev nD) : (dat0 V c).arrAt 3 cfg0.N = prod (V c main_arg0) (V c main_v1) :=
  (dat0 V c).arrAt_eq_of_cover 3 _ (fun t _ => flushed3_eq V c t) cover3

/-- … and its second output array the product with the second. -/
theorem final4 (c : Dev nD) : (dat0 V c).arrAt 4 cfg0.N = prod (V c main_arg0) (V c main_v3) :=
  (dat0 V c).arrAt_eq_of_cover 4 _ (fun t _ => flushed4_eq V c t) cover4

end Cert.KernelIdeal.Proj

end
-- ==== Proof.RouteDefs.lean ====
import Idealize.ShloMosaic.PureOps.Ideal.Laws

/-! The routing arithmetic on one row, as scalar functions on the extended reals. From the three inner products of a
row — ⟨q,q⟩, ⟨k,k⟩ and ⟨q,k⟩ — the boundary probability is
clip(½ − ½ · ⟨q,k⟩ / (max(√⟨q,q⟩, ε) · max(√⟨k,k⟩, ε)), 0, 1); the boundary bit is "probability ≥ ½"; the masked
probability keeps the probability where the bit is set and is 0 elsewhere. The float literals stay as their words:
both programs spell the same words, so none is ever evaluated. -/

noncomputable section

namespace Cert.Route

open Idealize.ShloMosaic

/-- The boundary probability of a row from its three inner products, on the extended reals. -/
def prob (qq kk qk : EReal) : EReal :=
  min (Ideal.ofBits .f32 0x3F800000#32) (max (Ideal.ofBits .f32 0x00000000#32)
    (Ideal.ofBits .f32 0x3F000000#32 - Ideal.ofBits .f32 0x3F000000#32 *
      Ideal.div qk (max (Ideal.sqrt qq) (Ideal.ofBits .f32 0x322BCC77#32) * max (Ideal.sqrt kk) (Ideal.ofBits .f32 0x322BCC77#32))))

/-- The boundary bit: the probability is at least one half. -/
def edge (p : EReal) : BitVec 1 := Ideal.cmp .oge p (Ideal.ofBits .f32 0x3F000000#32)

/-- The probability where the boundary bit is set, zero elsewhere. -/
def kept (p : EReal) : EReal := Scalar.select (edge p) p (Ideal.ofBits .f32 0x00000000#32)

end Cert.Route

end
-- ==== Proof.CosPay.lean ====
import proofs.«423826_j13331578486932_1_alg».proof.Proof.Gen.KernelIdeal.Skeleton
import proofs.«423826_j13331578486932_1_alg».proof.Proof.RouteDefs
import Idealize.ShloMosaic.PureOps.Ideal.Laws
import Idealize.ShloMosaic.Lib.ValueIdx
import Idealize.ShloMosaic.Lib.Pipeline.Value

/-! The routing kernel's arithmetic on one row. From the three inner products of a row — ⟨q,q⟩, ⟨k,k⟩ and ⟨q,k⟩ —
the boundary probability is  clip(½ − ½ · ⟨q,k⟩ / (max(√⟨q,q⟩, ε) · max(√⟨k,k⟩, ε)), 0, 1),  the boundary bit is
"probability ≥ ½", and the masked probability keeps the probability where the bit is set and is 0 elsewhere.
The body computes each inner product as a lane sum of a product of two loaded blocks. -/

noncomputable section

namespace Cert.KernelIdeal.CosPay

open Cert.KernelIdeal Cert.KernelIdeal.Gen Idealize.ShloMosaic Idealize.ShloMosaic.ValueIdx

/-- A lane sum of a product of two blocks, at row `r`: the inner product of the two rows. -/
theorem lane_sum (a b : FVec Ideal S256x2048 .f32) (r : Fin 256) :
    multiReduction .add [1] S256 (mulf a b) 0x00000000#32 reduces_S256x2048_S256 (.inl rfl) rfl (ix1 r)
      = ∑ k : Fin 2048, a (ix2 r k) * b (ix2 r k) := by
  refine (Ideal.multiReduction_add_single (mulf a b) 0x00000000#32 reduces_S256x2048_S256 (.inl rfl) rfl (ix1 r)).trans ?_
  refine Finset.sum_congr rfl fun k _ => ?_
  have e : reduces_S256x2048_S256.lift (ix1 r) k = ix2 r k :=
    funext fun a => Fin.ext (by match a with | ⟨0, _⟩ => rfl | ⟨1, _⟩ => rfl)
  rw [e]; rfl

/-- The stored probability at row `r` of a block pair. -/
theorem pay1_apply (xq xk : FVec Ideal S256x2048 .f32) (r : Fin 256) :
    k1_pay1 (F := Ideal) xq xk (ix1 r)
      = Cert.Route.prob (∑ k : Fin 2048, xq (ix2 r k) * xq (ix2 r k)) (∑ k : Fin 2048, xk (ix2 r k) * xk (ix2 r k))
          (∑ k : Fin 2048, xq (ix2 r k) * xk (ix2 r k)) := by
  unfold k1_pay1
  simp only [shapeCast_self]
  rw [← lane_sum xq xq r, ← lane_sum xk xk r, ← lane_sum xq xk r]
  rfl

/-- The boundary bit at row `r`: the comparison of the stored probability with one half. -/
theorem pay2_apply (xq xk : FVec Ideal S256x2048 .f32) (r : Fin 256) :
    k1_pay2 (F := Ideal) xq xk (ix1 r) = Cert.Route.edge (k1_pay1 (F := Ideal) xq xk (ix1 r)) := by
  unfold k1_pay2
  generalize k1_pay1 (F := Ideal) xq xk = P
  rfl

/-- The masked probability at row `r`. -/
theorem pay3_apply (xq xk : FVec Ideal S256x2048 .f32) (r : Fin 256) :
    k1_pay3 (F := Ideal) xq xk (ix1 r) = Cert.Route.kept (k1_pay1 (F := Ideal) xq xk (ix1 r)) := by
  unfold k1_pay3 k1_pay2
  generalize k1_pay1 (F := Ideal) xq xk = P
  rfl

/-- The boundary bit widened to a 32-bit word, as the kernel stores it. -/
theorem pay4_apply (xq xk : FVec Ideal S256x2048 .f32) (r : Fin 256) :
    k1_pay4 (F := Ideal) xq xk (ix1 r) = (Cert.Route.edge (k1_pay1 (F := Ideal) xq xk (ix1 r))).setWidth 32 := by
  unfold k1_pay4 k1_pay2
  generalize k1_pay1 (F := Ideal) xq xk = P
  rfl

end Cert.KernelIdeal.CosPay

end
-- ==== Proof.RouteArr.lean ====
import proofs.«423826_j13331578486932_1_alg».proof.Proof.Gen.KernelIdeal.Frame
import proofs.«423826_j13331578486932_1_alg».proof.Proof.CosPay

/-! The second region's three output arrays, whole. The grid has 64 points; point `t` reads rows 256·t … 256·t+255 of
the two 16384×2048 arrays `q` and `k` and writes entries 256·t … 256·t+255 of each output. Entry `i` of the outputs
is the routing arithmetic of row `i`'s three inner products ⟨qᵢ,qᵢ⟩, ⟨kᵢ,kᵢ⟩, ⟨qᵢ,kᵢ⟩: the probability, the
boundary bit widened to a word, and the masked probability. -/

set_option maxRecDepth 16384

noncomputable section

namespace Cert.KernelIdeal.RouteArr

open Cert.KernelIdeal Cert.KernelIdeal.Gen Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The inner product of row `i` of two 16384×2048 arrays. -/
abbrev rowdot (A B : S16384x2048.Idx → EReal) (i : Fin 16384) : EReal := ∑ k : Fin 2048, A (ix2 i k) * B (ix2 i k)

/-- The boundary probability of every row. -/
abbrev probArr (Q K : S16384x2048.Idx → EReal) : S16384.Idx → EReal :=
  fun i => Cert.Route.prob (rowdot Q Q ⟨(i 0).val, (i 0).isLt⟩) (rowdot K K ⟨(i 0).val, (i 0).isLt⟩) (rowdot Q K ⟨(i 0).val, (i 0).isLt⟩)

/-- The boundary bit of every row, as the 32-bit word the kernel stores. -/
abbrev edgeArr (Q K : S16384x2048.Idx → EReal) : S16384.Idx → BitVec 32 :=
  fun i => (Cert.Route.edge (probArr Q K i)).setWidth 32

/-- The masked probability of every row. -/
abbrev keptArr (Q K : S16384x2048.Idx → EReal) : S16384.Idx → EReal :=
  fun i => Cert.Route.kept (probArr Q K i)

/-- The printed index maps over the grid: every window sits at block row `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = t.val ∧ win1_3.index t (0 : Fin 1) = t.val ∧ win1_4.index t (0 : Fin 1) = t.val :=
  (by decide +kernel : ∀ t : Fin grid1.N, _)

theorem row_lt (t : Fin cfg1.N) (r : Fin 256) : t.val * 256 + r.val < 16384 := by
  have hN : cfg1.N = 64 := N_1
  have ht : t.val < 64 := hN ▸ t.isLt
  have hr : r.val < 256 := r.isLt
  omega

/-- The stored probability at row `r` of point `t`'s blocks is the probability of row 256·t + r of the arrays. -/
theorem blk_prob (c : Dev nD) (t : Fin cfg1.N) (r : Fin 256) :
    k1_pay1 (F := Ideal) (iblk1 V c 0 t) (iblk1 V c 1 t) (ix1 r)
      = probArr (V c main_v23) (V c main_v4_1) (ix1 ⟨t.val * 256 + r.val, row_lt t r⟩) := by
  obtain ⟨e00, e01, e10, e11, e2, e3, e4⟩ := idx_facts t
  refine (CosPay.pay1_apply (iblk1 V c 0 t) (iblk1 V c 1 t) r).trans ?_
  have hq : ∀ k : Fin 2048, iblk1 V c 0 t (ix2 r k) = V c main_v23 (ix2 ⟨t.val * 256 + r.val, row_lt t r⟩ k) := fun k => by
    show V c main_v23 (((cfg1.win 0).blk t).view.emb (ix2 r k)) = _
    refine congrArg (V c main_v23) (funext fun a => Fin.ext ?_)
    match a with
    | ⟨0, _⟩ => show win1_0.index t (0 : Fin 2) * 256 + 1 * r.val = t.val * 256 + r.val; omega
    | ⟨1, _⟩ => show win1_0.index t (1 : Fin 2) * 2048 + 1 * k.val = k.val; omega
  have hk : ∀ k : Fin 2048, iblk1 V c 1 t (ix2 r k) = V c main_v4_1 (ix2 ⟨t.val * 256 + r.val, row_lt t r⟩ k) := fun k => by
    show V c main_v4_1 (((cfg1.win 1).blk t).view.emb (ix2 r k)) = _
    refine congrArg (V c main_v4_1) (funext fun a => Fin.ext ?_)
    match a with
    | ⟨0, _⟩ => show win1_1.index t (0 : Fin 2) * 256 + 1 * r.val = t.val * 256 + r.val; omega
    | ⟨1, _⟩ => show win1_1.index t (1 : Fin 2) * 2048 + 1 * k.val = k.val; omega
  simp only [hq, hk]

/-- What point `t` writes back through output window 2 is block `t` of the whole-array function. -/
theorem flushed2_eq (c : Dev nD) (t : Fin cfg1.N) :
    (dat1 V c).flushed 2 t = ((cfg1.win 2).blk t).view.read (Elt Ideal) (probArr (V c main_v23) (V c main_v4_1)) := by
  show (cfg1.win 2).cut (grid1.coords t) ((dat1 V c).after 2 t) = _
  rw [after1_2]
  unfold out1_2
  rw [View.canon_unit_zero hz1]
  simp only [View.ld_unit_zero (S := S256x2048) hz]
  obtain ⟨e00, e01, e10, e11, e2, e3, e4⟩ := idx_facts t
  funext j
  obtain ⟨r, rfl⟩ : ∃ r : Fin 256, j = ix1 r := ⟨j 0, eq_ix1 j⟩
  show k1_pay1 (F := Ideal) (iblk1 V c 0 t) (iblk1 V c 1 t) (ix1 r) = probArr (V c main_v23) (V c main_v4_1) (((cfg1.win 2).blk t).view.emb (ix1 r))
  rw [blk_prob V c t r]
  show probArr (V c main_v23) (V c main_v4_1) (ix1 ⟨t.val * 256 + r.val, row_lt t r⟩) = probArr (V c main_v23) (V c main_v4_1) _
  refine congrArg (probArr (V c main_v23) (V c main_v4_1)) (funext fun a => Fin.ext ?_)
  match a with
  | ⟨0, _⟩ => show t.val * 256 + r.val = win1_2.index t (0 : Fin 1) * 256 + 1 * r.val; omega

/-- What point `t` writes back through output window 3 is block `t` of the whole-array function. -/
theorem flushed3_eq (c : Dev nD) (t : Fin cfg1.N) :
    (dat1 V c).flushed 3 t = ((cfg1.win 3).blk t).view.read (Elt Ideal) (edgeArr (V c main_v23) (V c main_v4_1)) := by
  show (cfg1.win 3).cut (grid1.coords t) ((dat1 V c).after 3 t) = _
  rw [after1_3]
  unfold out1_3
  rw [View.canon_unit_zero hz1]
  simp only [View.ld_unit_zero (S := S256x2048) hz]
  obtain ⟨e00, e01, e10, e11, e2, e3, e4⟩ := idx_facts t
  funext j
  obtain ⟨r, rfl⟩ : ∃ r : Fin 256, j = ix1 r := ⟨j 0, eq_ix1 j⟩
  show k1_pay4 (F := Ideal) (iblk1 V c 0 t) (iblk1 V c 1 t) (ix1 r) = edgeArr (V c main_v23) (V c main_v4_1) (((cfg1.win 3).blk t).view.emb (ix1 r))
  rw [CosPay.pay4_apply, blk_prob V c t r]
  show edgeArr (V c main_v23) (V c main_v4_1) (ix1 ⟨t.val * 256 + r.val, row_lt t r⟩) = edgeArr (V c main_v23) (V c main_v4_1) _
  refine congrArg (edgeArr (V c main_v23) (V c main_v4_1)) (funext fun a => Fin.ext ?_)
  match a with
  | ⟨0, _⟩ => show t.val * 256 + r.val = win1_3.index t (0 : Fin 1) * 256 + 1 * r.val; omega

/-- What point `t` writes back through output window 4 is block `t` of the whole-array function. -/
theorem flushed4_eq (c : Dev nD) (t : Fin cfg1.N) :
    (dat1 V c).flushed 4 t = ((cfg1.win 4).blk t).view.read (Elt Ideal) (keptArr (V c main_v23) (V c main_v4_1)) := by
  show (cfg1.win 4).cut (grid1.coords t) ((dat1 V c).after 4 t) = _
  rw [after1_4]
  unfold out1_4
  rw [View.canon_unit_zero hz1]
  simp only [View.ld_unit_zero (S := S256x2048) hz]
  obtain ⟨e00, e01, e10, e11, e2, e3, e4⟩ := idx_facts t
  funext j
  obtain ⟨r, rfl⟩ : ∃ r : Fin 256, j = ix1 r := ⟨j 0, eq_ix1 j⟩
  show k1_pay3 (F := Ideal) (iblk1 V c 0 t) (iblk1 V c 1 t) (ix1 r) = keptArr (V c main_v23) (V c main_v4_1) (((cfg1.win 4).blk t).view.emb (ix1 r))
  rw [CosPay.pay3_apply, blk_prob V c t r]
  show keptArr (V c main_v23) (V c main_v4_1) (ix1 ⟨t.val * 256 + r.val, row_lt t r⟩) = keptArr (V c main_v23) (V c main_v4_1) _
  refine congrArg (keptArr (V c main_v23) (V c main_v4_1)) (funext fun a => Fin.ext ?_)
  match a with
  | ⟨0, _⟩ => show t.val * 256 + r.val = win1_4.index t (0 : Fin 1) * 256 + 1 * r.val; omega

theorem mem_blk2 (t : Fin cfg1.N) (i : S16384.Idx) :
    i ∈ ((cfg1.win 2).blk t).view.set ↔ ∀ a : Fin 1, win1_2.index t a * S256.size a ≤ (i a).val ∧ (i a).val < win1_2.index t a * S256.size a + S256.size a := by
  show i ∈ ((View.whole main_v24_0).slice (win1_2.rect t)).set ↔ _
  rw [View.set_slice_whole, Rect.mem_set_unit]
  exact Iff.rfl

/-- Entry `i` lies in the block of point `i / 256`. -/
theorem cover2 (i : S16384.Idx) : ∃ t : Fin cfg1.N, (cfg1.win 2).flush t = true ∧ i ∈ ((cfg1.win 2).blk t).view.set := by
  have hi0 : (i 0).val < 16384 := (i 0).isLt
  have hN : cfg1.N = 64 := N_1
  let t : Fin cfg1.N := ⟨(i 0).val / 256, by rw [hN]; omega⟩
  obtain ⟨e00, e01, e10, e11, e2, e3, e4⟩ := idx_facts t
  have ht : t.val = (i 0).val / 256 := rfl
  refine ⟨t, flush1_2 t, ?_⟩
  rw [mem_blk2]
  intro a
  match a with
  | ⟨0, _⟩ => show win1_2.index t (0 : Fin 1) * 256 ≤ (i 0).val ∧ (i 0).val < win1_2.index t (0 : Fin 1) * 256 + 256; omega

theorem mem_blk3 (t : Fin cfg1.N) (i : S16384.Idx) :
    i ∈ ((cfg1.win 3).blk t).view.set ↔ ∀ a : Fin 1, win1_3.index t a * S256.size a ≤ (i a).val ∧ (i a).val < win1_3.index t a * S256.size a + S256.size a := by
  show i ∈ ((View.whole main_v24_1).slice (win1_3.rect t)).set ↔ _
  rw [View.set_slice_whole, Rect.mem_set_unit]
  exact Iff.rfl

/-- Entry `i` lies in the block of point `i / 256`. -/
theorem cover3 (i : S16384.Idx) : ∃ t : Fin cfg1.N, (cfg1.win 3).flush t = true ∧ i ∈ ((cfg1.win 3).blk t).view.set := by
  have hi0 : (i 0).val < 16384 := (i 0).isLt
  have hN : cfg1.N = 64 := N_1
  let t : Fin cfg1.N := ⟨(i 0).val / 256, by rw [hN]; omega⟩
  obtain ⟨e00, e01, e10, e11, e2, e3, e4⟩ := idx_facts t
  have ht : t.val = (i 0).val / 256 := rfl
  refine ⟨t, flush1_3 t, ?_⟩
  rw [mem_blk3]
  intro a
  match a with
  | ⟨0, _⟩ => show win1_3.index t (0 : Fin 1) * 256 ≤ (i 0).val ∧ (i 0).val < win1_3.index t (0 : Fin 1) * 256 + 256; omega

theorem mem_blk4 (t : Fin cfg1.N) (i : S16384.Idx) :
    i ∈ ((cfg1.win 4).blk t).view.set ↔ ∀ a : Fin 1, win1_4.index t a * S256.size a ≤ (i a).val ∧ (i a).val < win1_4.index t a * S256.size a + S256.size a := by
  show i ∈ ((View.whole main_v24_2).slice (win1_4.rect t)).set ↔ _
  rw [View.set_slice_whole, Rect.mem_set_unit]
  exact Iff.rfl

/-- Entry `i` lies in the block of point `i / 256`. -/
theorem cover4 (i : S16384.Idx) : ∃ t : Fin cfg1.N, (cfg1.win 4).flush t = true ∧ i ∈ ((cfg1.win 4).blk t).view.set := by
  have hi0 : (i 0).val < 16384 := (i 0).isLt
  have hN : cfg1.N = 64 := N_1
  let t : Fin cfg1.N := ⟨(i 0).val / 256, by rw [hN]; omega⟩
  obtain ⟨e00, e01, e10, e11, e2, e3, e4⟩ := idx_facts t
  have ht : t.val = (i 0).val / 256 := rfl
  refine ⟨t, flush1_4 t, ?_⟩
  rw [mem_blk4]
  intro a
  match a with
  | ⟨0, _⟩ => show win1_4.index t (0 : Fin 1) * 256 ≤ (i 0).val ∧ (i 0).val < win1_4.index t (0 : Fin 1) * 256 + 256; omega

/-- After the second region: the probabilities, -/
theorem final2 (c : Dev nD) : (dat1 V c).arrAt 2 cfg1.N = probArr (V c main_v23) (V c main_v4_1) :=
  (dat1 V c).arrAt_eq_of_cover 2 _ (fun t _ => flushed2_eq V c t) cover2

/-- the boundary bits as words, -/
theorem final3 (c : Dev nD) : (dat1 V c).arrAt 3 cfg1.N = edgeArr (V c main_v23) (V c main_v4_1) :=
  (dat1 V c).arrAt_eq_of_cover 3 _ (fun t _ => flushed3_eq V c t) cover3

/-- and the masked probabilities. -/
theorem final4 (c : Dev nD) : (dat1 V c).arrAt 4 cfg1.N = keptArr (V c main_v23) (V c main_v4_1) :=
  (dat1 V c).arrAt_eq_of_cover 4 _ (fun t _ => flushed4_eq V c t) cover4

end Cert.KernelIdeal.RouteArr

end
-- ==== Proof.KernelValue.lean ====
import proofs.«423826_j13331578486932_1_alg».proof.Proof.Gen.KernelIdeal.Frame
import proofs.«423826_j13331578486932_1_alg».proof.Proof.Proj
import proofs.«423826_j13331578486932_1_alg».proof.Proof.RouteArr
import Idealize.ShloMosaic.Lib.StableHlo.Run

/-! The idealized kernel program's three returned arrays as functions of the launch memory. Between the two regions
the host shifts the query projection down one row (row 0 becomes zero) and overwrites the sequence-start rows with the
negated key rows: that chain is carried as ONE function `shiftOverride` of the two projections and the offsets and is
never opened. Before the first region the host transposes the two weight matrices; after the second it turns the
stored boundary words back into bits by comparing them with zero. -/

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo

/-- The host chain between the two regions, as one function of the query projection, the key projection and the
    sequence offsets. -/
def shiftOverride {F : FTy → Type} [FloatOps F] (P K : (⟨S16384x2048, .f32⟩ : BufTy).Contents (Elt F)) (off : (⟨S9, .i32⟩ : BufTy).Contents (Elt F)) :
    (⟨S16384x2048, .f32⟩ : BufTy).Contents (Elt F) :=
  Host.scatter scatter_S16384x2048_S8x1_S8x2048_1_0_0_1 (fun _ b => b)
    (concatenate S16384x2048 0
      [⟨S1x2048, broadcastInDim S1x2048 ![] bcast_S_S1x2048 (constant S_ .f32 0x00000000#32)⟩,
        ⟨S16383x2048, extractStridedSlice S16383x2048 ![0, 0] P slices_S16384x2048_S16383x2048_0_0⟩]
      concatenates_S1x2048_S16383x2048_S16384x2048_d0)
    (broadcastInDim S8x1 ![0] bcast_S8_S8x1_0
      (select
        (cmpi .slt (extractStridedSlice S8 ![0] off slices_S9_S8_0) (broadcastInDim S8 ![] bcast_S_S8 (constantI S_ 32 0#32)))
        (addi (extractStridedSlice S8 ![0] off slices_S9_S8_0) (broadcastInDim S8 ![] bcast_S_S8 (constantI S_ 32 16384#32)))
        (extractStridedSlice S8 ![0] off slices_S9_S8_0)))
    (Host.negf
      (Host.gather gather_S16384x2048_S8x1_S8x2048_1_0_n_n_0_1_12048 K
        (broadcastInDim S8x1 ![0] bcast_S8_S8x1_0
          (select
            (cmpi .slt (extractStridedSlice S8 ![0] off slices_S9_S8_0) (broadcastInDim S8 ![] bcast_S_S8 (constantI S_ 32 0#32)))
            (addi (extractStridedSlice S8 ![0] off slices_S9_S8_0) (broadcastInDim S8 ![] bcast_S_S8 (constantI S_ 32 16384#32)))
            (extractStridedSlice S8 ![0] off slices_S9_S8_0)))))

/-- A weight matrix as the first region reads it: transposed (the change of float format is the identity on the
    extended reals, and stays spelt). -/
def staged {F : FTy → Type} [FloatOps F] (w : (⟨S2048x2048, .f32⟩ : BufTy).Contents (Elt F)) : (⟨S2048x2048, .bf16⟩ : BufTy).Contents (Elt F) :=
  truncf .bf16 (transpose S2048x2048 [1, 0] w transposes_S2048x2048_S2048x2048_1_0) bitsLt_bf16_f32

/-- The stored boundary words turned back into bits. -/
def asBits {F : FTy → Type} [FloatOps F] (b : (⟨S16384, .i32⟩ : BufTy).Contents (Elt F)) : (⟨S16384, .i1⟩ : BufTy).Contents (Elt F) :=
  id (cmpi .ne b (broadcastInDim S16384 ![] bcast_S_S16384 (constantI S_ 32 0#32)))

variable (m : (ℓ : Loc nD τ sig) → Buf (Elt Ideal) ℓ) (ρ : Dev nD → PrngReg)

/-! ## The first region's entry contents -/

theorem v1_x (c : Dev nD) : V1 m ρ c main_arg0 = m ((c : Thread nD τ).loc main_arg0) :=
  StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem v1_wq (c : Dev nD) : V1 m ρ c main_v1 = staged (m ((c : Thread nD τ).loc main_arg1)) := by
  show StableHlo.after hostOps0 (W0 m ρ c) (Proc.devRef .tc main_v1) = _
  after_results
  rfl

theorem v1_wk (c : Dev nD) : V1 m ρ c main_v3 = staged (m ((c : Thread nD τ).loc main_arg2)) := by
  show StableHlo.after hostOps0 (W0 m ρ c) (Proc.devRef .tc main_v3) = _
  after_results
  rfl

/-! ## After the first region -/

theorem w2_proj (c : Dev nD) : W2 m ρ c (Proc.devRef .tc main_v4_0)
    = Proj.prod (m ((c : Thread nD τ).loc main_arg0)) (staged (m ((c : Thread nD τ).loc main_arg1))) := by
  refine (W2_arr m ρ c 3).trans ?_
  refine (Proj.final3 (V1 m ρ) c).trans ?_
  rw [v1_x m ρ c, v1_wq m ρ c]

theorem w2_key (c : Dev nD) : W2 m ρ c (Proc.devRef .tc main_v4_1)
    = Proj.prod (m ((c : Thread nD τ).loc main_arg0)) (staged (m ((c : Thread nD τ).loc main_arg2))) := by
  refine (W2_arr m ρ c 4).trans ?_
  refine (Proj.final4 (V1 m ρ) c).trans ?_
  rw [v1_x m ρ c, v1_wk m ρ c]

theorem w2_off (c : Dev nD) : W2 m ρ c (Proc.devRef .tc main_arg3) = m ((c : Thread nD τ).loc main_arg3) :=
  (W2_of_ne m ρ c main_arg3 (by decide)).trans (StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The second region's entry contents -/

set_option maxHeartbeats 4000000 in
theorem v3_q (c : Dev nD) : V3 m ρ c main_v23
    = shiftOverride (W2 m ρ c (Proc.devRef .tc main_v4_0)) (W2 m ρ c (Proc.devRef .tc main_v4_1)) (W2 m ρ c (Proc.devRef .tc main_arg3)) := by
  show StableHlo.after hostOps1 (W2 m ρ c) (Proc.devRef .tc main_v23) = _
  after_results
  generalize W2 m ρ c (Proc.devRef .tc main_v4_0) = P
  generalize W2 m ρ c (Proc.devRef .tc main_v4_1) = K
  generalize W2 m ρ c (Proc.devRef .tc main_arg3) = off
  rfl

theorem v3_k (c : Dev nD) : V3 m ρ c main_v4_1 = W2 m ρ c (Proc.devRef .tc main_v4_1) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The key projection and the shifted, overridden query projection, from the launch memory. -/
abbrev keyOf (c : Dev nD) : S16384x2048.Idx → EReal :=
  Proj.prod (m ((c : Thread nD τ).loc main_arg0)) (staged (m ((c : Thread nD τ).loc main_arg2)))
abbrev queryOf (c : Dev nD) : S16384x2048.Idx → EReal :=
  shiftOverride (F := Ideal) (Proj.prod (m ((c : Thread nD τ).loc main_arg0)) (staged (m ((c : Thread nD τ).loc main_arg1)))) (keyOf m c) (m ((c : Thread nD τ).loc main_arg3))

theorem v3_q' (c : Dev nD) : V3 m ρ c main_v23 = queryOf m c := by
  rw [v3_q m ρ c, w2_proj m ρ c, w2_key m ρ c, w2_off m ρ c]

theorem v3_k' (c : Dev nD) : V3 m ρ c main_v4_1 = keyOf m c := by
  rw [v3_k m ρ c, w2_key m ρ c]

/-! ## The three returned arrays -/

theorem res_prob (c : Dev nD) : W5 m ρ c (Proc.devRef .tc main_v24_0) = RouteArr.probArr (queryOf m c) (keyOf m c) := by
  refine (StableHlo.after_of_forall_not_mem (b := _) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (W4_arr m ρ c 2).trans ?_
  refine (RouteArr.final2 (V3 m ρ) c).trans ?_
  rw [v3_q' m ρ c, v3_k' m ρ c]

theorem res_kept (c : Dev nD) : W5 m ρ c (Proc.devRef .tc main_v24_2) = RouteArr.keptArr (queryOf m c) (keyOf m c) := by
  refine (StableHlo.after_of_forall_not_mem (b := _) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (W4_arr m ρ c 4).trans ?_
  refine (RouteArr.final4 (V3 m ρ) c).trans ?_
  rw [v3_q' m ρ c, v3_k' m ρ c]

theorem res_bits (c : Dev nD) : W5 m ρ c (Proc.devRef .tc main_v27) = asBits (F := Ideal) (RouteArr.edgeArr (queryOf m c) (keyOf m c)) := by
  have h : W5 m ρ c (Proc.devRef .tc main_v27) = asBits (F := Ideal) (W4 m ρ c (Proc.devRef .tc main_v24_1)) := by
    show StableHlo.after hostOps2 (W4 m ρ c) (Proc.devRef .tc main_v27) = _
    after_results
    rfl
  rw [h]
  refine congrArg (asBits (F := Ideal)) ?_
  refine (W4_arr m ρ c 3).trans ?_
  refine (RouteArr.final3 (V3 m ρ) c).trans ?_
  rw [v3_q' m ρ c, v3_k' m ρ c]

end Cert.KernelIdeal.KVal

end
-- ==== Proof.RefSpec.lean ====
import proofs.«423826_j13331578486932_1_alg».proof.Proof.RefRead
import proofs.«423826_j13331578486932_1_alg».proof.Proof.RouteDefs

/-! The reference, read at an index. Its two projections are rows-by-rows products: entry (i, j) of `x · wᵀ` is
∑ₖ x[i, k] · w[j, k]. Its three results at row `i` are the routing arithmetic of the three inner products of row `i`
of its shifted-and-overridden `q` array and its `k` array (the host sums start from the zero word, which adds nothing). -/

noncomputable section

namespace Cert.ReferenceIdeal.RefSpec

open Cert.ReferenceIdeal Cert.ReferenceIdeal.Gen Cert.ReferenceIdeal.ReadP Idealize.ShloMosaic Idealize.ShloMosaic.ValueIdx

/-- Entry (i, j) of the query projection: ∑ₖ x[i, k] · w_q[j, k]. -/
theorem proj_apply (x0 : (⟨S16384x2048, .f32⟩ : BufTy).Contents (Elt Ideal)) (x1 : (⟨S2048x2048, .f32⟩ : BufTy).Contents (Elt Ideal)) (i : S16384x2048.Idx) :
    val_main_v3 (F := Ideal) x0 x1 i = ∑ k : Fin 2048, x0 (ix2 ⟨(i 0).val, (i 0).isLt⟩ k) * x1 (ix2 ⟨(i 1).val, (i 1).isLt⟩ k) := by
  rw [val_main_v3_apply]
  refine Finset.sum_congr rfl fun k _ => ?_
  rw [val_main_v2_apply]
  have el : lidx_main_v3 i k = ix2 ⟨(i 0).val, (i 0).isLt⟩ k :=
    funext fun a => Fin.ext (by match a with | ⟨0, _⟩ => rfl | ⟨1, _⟩ => rfl)
  have er : idx_main_v2 (ridx_main_v3 i k) = ix2 ⟨(i 1).val, (i 1).isLt⟩ k :=
    funext fun a => Fin.ext (by match a with | ⟨0, _⟩ => rfl | ⟨1, _⟩ => rfl)
  rw [el, er]; rfl

/-- Entry (i, j) of the key projection: ∑ₖ x[i, k] · w_k[j, k]. -/
theorem key_apply (x0 : (⟨S16384x2048, .f32⟩ : BufTy).Contents (Elt Ideal)) (x2 : (⟨S2048x2048, .f32⟩ : BufTy).Contents (Elt Ideal)) (i : S16384x2048.Idx) :
    val_main_v1 (F := Ideal) x0 x2 i = ∑ k : Fin 2048, x0 (ix2 ⟨(i 0).val, (i 0).isLt⟩ k) * x2 (ix2 ⟨(i 1).val, (i 1).isLt⟩ k) := by
  rw [val_main_v1_apply]
  refine Finset.sum_congr rfl fun k _ => ?_
  rw [val_main_v0_apply]
  have el : lidx_main_v1 i k = ix2 ⟨(i 0).val, (i 0).isLt⟩ k :=
    funext fun a => Fin.ext (by match a with | ⟨0, _⟩ => rfl | ⟨1, _⟩ => rfl)
  have er : idx_main_v0 (ridx_main_v1 i k) = ix2 ⟨(i 1).val, (i 1).isLt⟩ k :=
    funext fun a => Fin.ext (by match a with | ⟨0, _⟩ => rfl | ⟨1, _⟩ => rfl)
  rw [el, er]; rfl

variable (x0 : (⟨S16384x2048, .f32⟩ : BufTy).Contents (Elt Ideal)) (x1 x2 : (⟨S2048x2048, .f32⟩ : BufTy).Contents (Elt Ideal)) (x3 : (⟨S9, .i32⟩ : BufTy).Contents (Elt Ideal))

/-- ⟨qᵢ, qᵢ⟩ as the reference sums it. -/
theorem sum_qq (i : S16384.Idx) :
    val_main_call0_v1 (F := Ideal) x0 x1 x2 x3 i
      = ∑ k : Fin 2048, val_main_v22 (F := Ideal) x0 x1 x2 x3 (ix2 ⟨(i 0).val, (i 0).isLt⟩ k) * val_main_v22 (F := Ideal) x0 x1 x2 x3 (ix2 ⟨(i 0).val, (i 0).isLt⟩ k) := by
  rw [val_main_call0_v1_apply]
  show Ideal.ofBits .f32 0x00000000#32 + _ = _
  rw [Ideal.ofBits_zero_f32, zero_add]
  refine Finset.sum_congr rfl fun k _ => ?_
  have e : idx_main_call0_v1 i k = ix2 ⟨(i 0).val, (i 0).isLt⟩ k :=
    funext fun a => Fin.ext (by match a with | ⟨0, _⟩ => rfl | ⟨1, _⟩ => rfl)
  rw [e]; rfl

/-- ⟨kᵢ, kᵢ⟩ as the reference sums it. -/
theorem sum_kk (i : S16384.Idx) :
    val_main_call1_v1 (F := Ideal) x0 x2 i
      = ∑ k : Fin 2048, val_main_v1 (F := Ideal) x0 x2 (ix2 ⟨(i 0).val, (i 0).isLt⟩ k) * val_main_v1 (F := Ideal) x0 x2 (ix2 ⟨(i 0).val, (i 0).isLt⟩ k) := by
  rw [val_main_call1_v1_apply]
  show Ideal.ofBits .f32 0x00000000#32 + _ = _
  rw [Ideal.ofBits_zero_f32, zero_add]
  refine Finset.sum_congr rfl fun k _ => ?_
  have e : idx_main_call1_v1 i k = ix2 ⟨(i 0).val, (i 0).isLt⟩ k :=
    funext fun a => Fin.ext (by match a with | ⟨0, _⟩ => rfl | ⟨1, _⟩ => rfl)
  rw [e]; rfl

/-- ⟨qᵢ, kᵢ⟩ as the reference sums it. -/
theorem sum_qk (i : S16384.Idx) :
    val_main_v30 (F := Ideal) x0 x1 x2 x3 i
      = ∑ k : Fin 2048, val_main_v22 (F := Ideal) x0 x1 x2 x3 (ix2 ⟨(i 0).val, (i 0).isLt⟩ k) * val_main_v1 (F := Ideal) x0 x2 (ix2 ⟨(i 0).val, (i 0).isLt⟩ k) := by
  rw [val_main_v30_apply]
  show Ideal.ofBits .f32 0x00000000#32 + _ = _
  rw [Ideal.ofBits_zero_f32, zero_add]
  refine Finset.sum_congr rfl fun k _ => ?_
  have e : idx_main_v30 i k = ix2 ⟨(i 0).val, (i 0).isLt⟩ k :=
    funext fun a => Fin.ext (by match a with | ⟨0, _⟩ => rfl | ⟨1, _⟩ => rfl)
  rw [e]; rfl

/-- The first result at row `i`: the routing probability of the three sums. -/
theorem prob_eq (i : S16384.Idx) :
    val_main_v37 (F := Ideal) x0 x1 x2 x3 i
      = Cert.Route.prob (val_main_call0_v1 (F := Ideal) x0 x1 x2 x3 i) (val_main_call1_v1 (F := Ideal) x0 x2 i) (val_main_v30 (F := Ideal) x0 x1 x2 x3 i) := by
  unfold val_main_v37 val_main_call2_v2 val_main_v36 val_main_v34 val_main_v32 val_main_v31 val_main_v25 val_main_v28 val_main_v23 val_main_v26
  generalize val_main_call0_v1 (F := Ideal) x0 x1 x2 x3 = A
  generalize val_main_call1_v1 (F := Ideal) x0 x2 = B
  generalize val_main_v30 (F := Ideal) x0 x1 x2 x3 = C
  rfl

/-- The second result: the boundary bit of the first. -/
theorem edge_eq (i : S16384.Idx) :
    val_main_v39 (F := Ideal) x0 x1 x2 x3 i = Cert.Route.edge (val_main_v37 (F := Ideal) x0 x1 x2 x3 i) := by
  unfold val_main_v39
  generalize val_main_v37 (F := Ideal) x0 x1 x2 x3 = P
  rfl

/-- The third result: the first, masked by the second. -/
theorem kept_eq (i : S16384.Idx) :
    val_main_v40 (F := Ideal) x0 x1 x2 x3 i = Cert.Route.kept (val_main_v37 (F := Ideal) x0 x1 x2 x3 i) := by
  unfold val_main_v40 val_main_v39
  generalize val_main_v37 (F := Ideal) x0 x1 x2 x3 = P
  rfl

end Cert.ReferenceIdeal.RefSpec

end
-- ==== Proof.Bridge.lean ====
import proofs.«423826_j13331578486932_1_alg».proof.Proof.KernelValue
import proofs.«423826_j13331578486932_1_alg».proof.Proof.KernelRun
import proofs.«423826_j13331578486932_1_alg».proof.Proof.RefSpec

/-! The two idealized programs compute the same three arrays. Both projections are the same sums: the kernel's
product of `x` with the transposed weight matrix, entry (i, j), is ∑ₖ x[i, k] · w[j, k], which is the reference's
`x · wᵀ`. The host chain between the regions is the reference's own chain applied to equal arrays. The routing
arithmetic of a row is the same scalar function of the same three inner products on both sides (the reference's host
sums start from the zero word). The boundary bit survives its round trip through a 32-bit word: widening a bit and
comparing the word with zero gives the bit back. -/

set_option maxRecDepth 16384

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP (val_main_v1 val_main_v3 val_main_v22 val_main_v37 val_main_v39 val_main_v40)

/-- A staged weight matrix at (k, j) is the weight matrix at (j, k). -/
theorem staged_apply (w : (⟨S2048x2048, .f32⟩ : BufTy).Contents (Elt Ideal)) (a b : Fin 2048) :
    KVal.staged (F := Ideal) w (ix2 a b) = w (ix2 b a) := by
  unfold KVal.staged
  refine (transpose_apply [1, 0] w transposes_S2048x2048_S2048x2048_1_0 (ix2 a b) (ix2 b a) (fun d => match d with
    | ⟨0, _⟩ => rfl
    | ⟨1, _⟩ => rfl))

/-- The kernel's product with a staged weight matrix is the rows-by-rows product: entry (i, j) is ∑ₖ x[i,k]·w[j,k]. -/
theorem prod_staged (x : (⟨S16384x2048, .f32⟩ : BufTy).Contents (Elt Ideal)) (w : (⟨S2048x2048, .f32⟩ : BufTy).Contents (Elt Ideal)) (i : S16384x2048.Idx) :
    Proj.prod x (KVal.staged (F := Ideal) w) i = ∑ k : Fin 2048, x (ix2 ⟨(i 0).val, (i 0).isLt⟩ k) * w (ix2 ⟨(i 1).val, (i 1).isLt⟩ k) := by
  show (∑ k : Fin 2048, (_ : EReal)) = _
  refine Finset.sum_congr rfl fun k _ => ?_
  rw [staged_apply]

variable (m : (ℓ : Loc nD τ sig) → Buf (Elt Ideal) ℓ)

/-- The key projection is the reference's. -/
theorem key_eq (c : Dev nD) : KVal.keyOf m c = val_main_v1 (F := Ideal) (m ((c : Thread nD τ).loc main_arg0)) (m ((c : Thread nD τ).loc main_arg2)) := by
  funext i
  rw [Cert.ReferenceIdeal.RefSpec.key_apply]
  exact prod_staged _ _ i

/-- The query projection is the reference's. -/
theorem proj_eq (c : Dev nD) : Proj.prod (m ((c : Thread nD τ).loc main_arg0)) (KVal.staged (F := Ideal) (m ((c : Thread nD τ).loc main_arg1)))
    = val_main_v3 (F := Ideal) (m ((c : Thread nD τ).loc main_arg0)) (m ((c : Thread nD τ).loc main_arg1)) := by
  funext i
  rw [Cert.ReferenceIdeal.RefSpec.proj_apply]
  exact prod_staged _ _ i

/-- The reference's shifted, overridden query array is the same host chain of its two projections and the offsets. -/
theorem ref_query {F : FTy → Type} [FloatOps F] (x0 : (⟨S16384x2048, .f32⟩ : BufTy).Contents (Elt F)) (x1 x2 : (⟨S2048x2048, .f32⟩ : BufTy).Contents (Elt F)) (x3 : (⟨S9, .i32⟩ : BufTy).Contents (Elt F)) :
    val_main_v22 (F := F) x0 x1 x2 x3 = KVal.shiftOverride (F := F) (val_main_v3 (F := F) x0 x1) (val_main_v1 (F := F) x0 x2) x3 := by
  unfold val_main_v22 Cert.ReferenceIdeal.ReadP.val_main_v6 Cert.ReferenceIdeal.ReadP.val_main_v5 Cert.ReferenceIdeal.ReadP.val_main_v4 Cert.ReferenceIdeal.ReadP.val_main_cst
    Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_c_2 Cert.ReferenceIdeal.ReadP.val_main_v17 Cert.ReferenceIdeal.ReadP.val_main_v16 Cert.ReferenceIdeal.ReadP.val_main_c_1
    Cert.ReferenceIdeal.ReadP.val_main_v15 Cert.ReferenceIdeal.ReadP.val_main_v14 Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_c_0 Cert.ReferenceIdeal.ReadP.val_main_v9 Cert.ReferenceIdeal.ReadP.val_main_v8 Cert.ReferenceIdeal.ReadP.val_main_c
    Cert.ReferenceIdeal.ReadP.val_main_v7 KVal.shiftOverride
  generalize val_main_v3 (F := F) x0 x1 = P
  generalize val_main_v1 (F := F) x0 x2 = K
  rfl

/-- The kernel program's query array is the reference's. -/
theorem query_eq (c : Dev nD) : KVal.queryOf m c = val_main_v22 (F := Ideal) (m ((c : Thread nD τ).loc main_arg0)) (m ((c : Thread nD τ).loc main_arg1)) (m ((c : Thread nD τ).loc main_arg2)) (m ((c : Thread nD τ).loc main_arg3)) := by
  rw [ref_query]
  show KVal.shiftOverride (F := Ideal) _ (KVal.keyOf m c) _ = _
  rw [proj_eq m c, key_eq m c]

/-- The probabilities are the reference's first result. -/
theorem prob_eq (c : Dev nD) : RouteArr.probArr (KVal.queryOf m c) (KVal.keyOf m c) = val_main_v37 (F := Ideal) (m ((c : Thread nD τ).loc main_arg0)) (m ((c : Thread nD τ).loc main_arg1)) (m ((c : Thread nD τ).loc main_arg2)) (m ((c : Thread nD τ).loc main_arg3)) := by
  rw [query_eq m c, key_eq m c]
  funext i
  rw [Cert.ReferenceIdeal.RefSpec.prob_eq, Cert.ReferenceIdeal.RefSpec.sum_qq, Cert.ReferenceIdeal.RefSpec.sum_kk, Cert.ReferenceIdeal.RefSpec.sum_qk]

/-- The masked probabilities are the reference's third result. -/
theorem kept_eq (c : Dev nD) : RouteArr.keptArr (KVal.queryOf m c) (KVal.keyOf m c) = val_main_v40 (F := Ideal) (m ((c : Thread nD τ).loc main_arg0)) (m ((c : Thread nD τ).loc main_arg1)) (m ((c : Thread nD τ).loc main_arg2)) (m ((c : Thread nD τ).loc main_arg3)) := by
  funext i
  rw [Cert.ReferenceIdeal.RefSpec.kept_eq, ← prob_eq m c]

/-- A bit widened to a word and compared with zero is the bit. -/
theorem bit_round_trip : ∀ b : BitVec 1, IntOp.cmpi .ne (b.setWidth 32) 0#32 = b := by decide

/-- Over any probability array: the stored boundary words, turned back into bits, are the boundary bits. -/
theorem asBits_edge (p : S16384.Idx → EReal) (i : S16384.Idx) :
    KVal.asBits (F := Ideal) (fun j => (Cert.Route.edge (p j)).setWidth 32) i = Cert.Route.edge (p i) := by
  show IntOp.cmpi .ne ((Cert.Route.edge (p i)).setWidth 32) 0#32 = _
  exact bit_round_trip _

/-- The boundary bits are the reference's second result. -/
theorem bits_eq (c : Dev nD) : KVal.asBits (F := Ideal) (RouteArr.edgeArr (KVal.queryOf m c) (KVal.keyOf m c)) = val_main_v39 (F := Ideal) (m ((c : Thread nD τ).loc main_arg0)) (m ((c : Thread nD τ).loc main_arg1)) (m ((c : Thread nD τ).loc main_arg2)) (m ((c : Thread nD τ).loc main_arg3)) := by
  funext i
  rw [Cert.ReferenceIdeal.RefSpec.edge_eq, ← prob_eq m c]
  exact asBits_edge (RouteArr.probArr (KVal.queryOf m c) (KVal.keyOf m c)) i

end Cert.Bridge

end
-- ==== Proof.lean ====
/- Equivalence over the extended reals of a two-kernel routing program with its jnp reference.

   The program projects 16384 tokens `x` (2048 features) with two 2048×2048 weight matrices, `proj = x · w_qᵀ` and
   `k = x · w_kᵀ` (first kernel: 64 row blocks of 256 tokens, one matrix-unit product per block and weight matrix);
   on the host it shifts `proj` down one token (row 0 becomes zero) and overwrites the eight sequence-start rows with
   the negated rows of `k`, giving `q`; the second kernel then computes, per token i, the cosine-similarity routing
   p_i = clip(½ − ½ · ⟨q_i,k_i⟩ / (max(‖q_i‖, ε) · max(‖k_i‖, ε)), 0, 1), the boundary bit p_i ≥ ½ and the masked
   probability. The reference computes the same with `dot_general`, host sums and the same host chain.

   On the extended reals a change of float format is the identity, the matrix unit's product into zero and the host's
   `dot_general` are the same sum ∑ₖ x[i,k]·w[j,k], a lane sum and a host sum from the zero word are the same sum, and
   every other operation is the same operation applied in the same order with the same literal words; the host chain
   between the kernels is literally the reference's. So the three results agree entry by entry, for every input: the
   precondition is not used by the value argument. The boundary bit the kernel stores as a 32-bit word and the host
   compares with zero is the bit itself.

   The three frames: the two kernel programs' are the generated frame certificates; the reference's is its run with
   the results dropped. `preserves` has no ledger entry. -/
import proofs.«423826_j13331578486932_1_alg».proof.Defs
import proofs.«423826_j13331578486932_1_alg».proof.Proof.Gen.Kernel
import proofs.«423826_j13331578486932_1_alg».proof.Proof.Gen.Kernel.Frame
import proofs.«423826_j13331578486932_1_alg».proof.Proof.Gen.KernelIdeal
import proofs.«423826_j13331578486932_1_alg».proof.Proof.Gen.KernelIdeal.Frame
import proofs.«423826_j13331578486932_1_alg».proof.Proof.Gen.ReferenceIdeal
import proofs.«423826_j13331578486932_1_alg».proof.Proof.Gen.Pre_finite_inputs
import proofs.«423826_j13331578486932_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.ReadP (val_main_v37 val_main_v39 val_main_v40 val_main_v37_eq val_main_v39_eq val_main_v40_eq)

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- Both idealized programs end with the reference's three stage functions of the (agreeing) arguments. -/
theorem algebraic : Cert.algebraic_KernelIdeal_ReferenceIdeal := by
  intro m ρ m' ρ' _ hagree
  refine ⟨fun c => val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => val_main_v39 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Gen.run_results m ρ)
    obtain ⟨h0, h1, h2, ha⟩ := h c
    exact ⟨h0.trans ((Cert.KernelIdeal.KVal.res_prob m ρ c).trans (Cert.Bridge.prob_eq m c)),
      h1.trans ((Cert.KernelIdeal.KVal.res_bits m ρ c).trans (Cert.Bridge.bits_eq m c)),
      h2.trans ((Cert.KernelIdeal.KVal.res_kept m ρ c).trans (Cert.Bridge.kept_eq m c)), ha⟩
  · refine (θ_run Cert.ReferenceIdeal.defs _ _).mono (fun r h c => ?_) (Cert.ReferenceIdeal.ValueP.run (F := Ideal) m' ρ')
    obtain ⟨h0, h1, h2, ha⟩ := h c
    obtain ⟨e0, e1, e2, e3⟩ := hagree c
    refine ⟨h0.trans ?_, h1.trans ?_, h2.trans ?_, ha⟩
    · rw [val_main_v37_eq, e0, e1, e2, e3]
    · rw [val_main_v39_eq, e0, e1, e2, e3]
    · rw [val_main_v40_eq, e0, e1, e2, e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
